-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x8 : Shape := ⟨2, ![256, 8]⟩
abbrev S2097152 : Shape := ⟨1, ![2097152]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x8 : S_.BroadcastsInDim S256x8 (![] : Fin 0 → Fin S256x8.rank)
  reducesTo_S256x8_S_d0_1 : S256x8.ReducesTo [0, 1] S_
  bcast_S_S4096 : S_.BroadcastsInDim S4096 (![] : Fin 0 → Fin S4096.rank)
  reducesTo_S4096_S_d0 : S4096.ReducesTo [0] S_
  bcast_S_S2097152 : S_.BroadcastsInDim S2097152 (![] : Fin 0 → Fin S2097152.rank)
  reducesTo_S2097152_S_d0 : S2097152.ReducesTo [0] S_

variable [Facts]

def fn_part1 {F : FTy → Type} [FloatOps F] (main_arg2 : IVec S2097152 32) (main_v13 : IVec S_ 1) (main_v15 : IVec S2097152 1) (main_c_5 : IVec S_ 32) : IVec S_ 1 :=
  let main_v16 : IVec S2097152 32 := broadcastInDim S2097152 ![] bcast_S_S2097152 main_c_5
  let main_v17 : IVec S2097152 1 := cmpi .slt main_arg2 main_v16
  let main_v18 : IVec S2097152 1 := andi main_v15 main_v17
  let main_c_6 : IVec S_ 1 := constantI S_ 1 1#1
  let main_v19 : IVec S_ 1 := (fun x v => Host.reduce IntOp.andi x v reducesTo_S2097152_S_d0 h_S_) main_v18 main_c_6
  let main_v20 : IVec S_ 1 := andi main_v13 main_v19
  main_v20

def fn {F : FTy → Type} [FloatOps F] (main_arg0 : FVec F S4x2048x4096 .f32) (main_arg1 : FVec F S256x8 .f32) (main_arg2 : IVec S2097152 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x8 .f32 := Host.absf main_arg1
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S2097152 32 := broadcastInDim S2097152 ![] bcast_S_S2097152 main_c_4
  let main_v15 : IVec S2097152 1 := cmpi .sge main_arg2 main_v14
  let main_c_5 : IVec S_ 32 := constantI S_ 32 256#32
  fn_part1 (F := F) main_arg2 main_v13 main_v15 main_c_5
-- ==== Kernel.lean ====
abbrev S4x2048x4096 : Shape := ⟨3, ![4, 2048, 4096]⟩
abbrev S256x8 : Shape := ⟨2, ![256, 8]⟩
abbrev S2097152 : Shape := ⟨1, ![2097152]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S512x4096x8 : Shape := ⟨3, ![512, 4096, 8]⟩
abbrev S4096x512x8 : Shape := ⟨3, ![4096, 512, 8]⟩
abbrev S4096x4096 : Shape := ⟨2, ![4096, 4096]⟩
abbrev S8192x4096 : Shape := ⟨2, ![8192, 4096]⟩
abbrev S1024x512 : Shape := ⟨2, ![1024, 512]⟩
abbrev S2048x512 : Shape := ⟨2, ![2048, 512]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 29
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256x8, .f32⟩
  | .hbm, ⟨2, _⟩ => ⟨S2097152, .i32⟩
  | .hbm, ⟨3, _⟩ => ⟨S4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S2097152, .i32⟩
  | .hbm, ⟨8, _⟩ => ⟨S2097152, .i32⟩
  | .hbm, ⟨9, _⟩ => ⟨S_, .i32⟩
  | .hbm, ⟨10, _⟩ => ⟨S2097152, .i32⟩
  | .hbm, ⟨11, _⟩ => ⟨S2097152, .i32⟩
  | .hbm, ⟨12, _⟩ => ⟨S_, .i32⟩
  | .hbm, ⟨13, _⟩ => ⟨S2097152, .i32⟩
  | .hbm, ⟨14, _⟩ => ⟨S2097152, .i1⟩
  | .hbm, ⟨15, _⟩ => ⟨S_, .i32⟩
  | .hbm, ⟨16, _⟩ => ⟨S2097152, .i32⟩
  | .hbm, ⟨17, _⟩ => ⟨S2097152, .i32⟩
  | .hbm, ⟨18, _⟩ => ⟨S2097152, .i32⟩
  | .hbm, ⟨19, _⟩ => ⟨S2097152x1, .i32⟩
  | .hbm, ⟨20, _⟩ => ⟨S2097152x8, .f32⟩
  | .hbm, ⟨21, _⟩ => ⟨S512x4096x8, .f32⟩
  | .hbm, ⟨22, _⟩ => ⟨S4096x512x8, .f32⟩
  | .hbm, ⟨23, _⟩ => ⟨S4096x4096, .f32⟩
  | .hbm, ⟨24, _⟩ => ⟨S4096x4096, .bf16⟩
  | .hbm, ⟨25, _⟩ => ⟨S8192x4096, .f32⟩
  | .hbm, ⟨26, _⟩ => ⟨S8192x4096, .bf16⟩
  | .hbm, ⟨27, _⟩ => ⟨S8192x4096, .f32⟩
  | .hbm, ⟨28, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S2048, .f32⟩
  | .local _ .vmem, ⟨5, _⟩ => ⟨S2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S512x4096x8 : S2097152x8.ShapeCasts S512x4096x8
  transposes_S512x4096x8_S4096x512x8_1_0_2 : S512x4096x8.Transposes [1, 0, 2] S4096x512x8
  shapeCasts_S4096x512x8_S4096x4096 : S4096x512x8.ShapeCasts S4096x4096
  bitsLt_bf16_f32 : FTy.bits .bf16 < FTy.bits .f32
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  shapeCasts_S8192x4096_S4x2048x4096 : S8192x4096.ShapeCasts S4x2048x4096
  gather_S256x8_S2097152x1_S2097152x8_1_0_n_n_0_1_18_wf : GatherDims.WF S256x8 S2097152x1 S2097152x8 [1] [0] [] [0] [] 1 ![1, 8]
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S4096.size a
  hwx0_2 : ∀ i : grid0.Coords, EltTy.bits .f32 = 32 ∨ (Rect.block (s := S4096) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def gather_S256x8_S2097152x1_S2097152x8_1_0_n_n_0_1_18 : GatherDims S256x8 S2097152x1 S2097152x8 where
  offsetDims := [1]
  collapsedSliceDims := [0]
  operandBatchingDims := []
  startIndicesBatchingDims := []
  startIndexMap := [0]
  indexVectorDim := 1
  sliceSizes := ![1, 8]
  wf := gather_S256x8_S2097152x1_S2097152x8_1_0_n_n_0_1_18_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v13) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256x8 : Shape := ⟨2, ![256, 8]⟩
abbrev S2097152 : Shape := ⟨1, ![2097152]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S512x4096x8 : Shape := ⟨3, ![512, 4096, 8]⟩
abbrev S4096x512x8 : Shape := ⟨3, ![4096, 512, 8]⟩
abbrev S4096x4096 : Shape := ⟨2, ![4096, 4096]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x8, .f32⟩
  | .hbm, ⟨2, _⟩ => ⟨S2097152, .i32⟩
  | .hbm, ⟨3, _⟩ => ⟨S4096, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x8, .f32⟩
  | .hbm, ⟨13, _⟩ => ⟨S512x4096x8, .f32⟩
  | .hbm, ⟨14, _⟩ => ⟨S4096x512x8, .f32⟩
  | .hbm, ⟨15, _⟩ => ⟨S4096x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S512x4096x8 : S2097152x8.ShapeCasts S512x4096x8
  transposes_S512x4096x8_S4096x512x8_1_0_2 : S512x4096x8.Transposes [1, 0, 2] S4096x512x8
  shapeCasts_S4096x512x8_S4096x4096 : S4096x512x8.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256x8_S2097152x1_S2097152x8_1_0_n_n_0_1_18_wf : GatherDims.WF S256x8 S2097152x1 S2097152x8 [1] [0] [] [0] [] 1 ![1, 8]
  dot_S4x2048x4096_S4096x4096_S4x2048x4096_2_1_01_0_n_n_wf : DotDims.WF S4x2048x4096 S4096x4096 S4x2048x4096 [2] [1] [0, 1] [0] [] []

variable [Facts₀]

def gather_S256x8_S2097152x1_S2097152x8_1_0_n_n_0_1_18 : GatherDims S256x8 S2097152x1 S2097152x8 where
  offsetDims := [1]
  collapsedSliceDims := [0]
  operandBatchingDims := []
  startIndicesBatchingDims := []
  startIndexMap := [0]
  indexVectorDim := 1
  sliceSizes := ![1, 8]
  wf := gather_S256x8_S2097152x1_S2097152x8_1_0_n_n_0_1_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
import proofs.«429844_j46007689674846_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Hand

open Cert.KernelIdeal Cert.KernelIdeal.Gen

variable {F : FTy → Type} [FloatOps F]

/-! What each control case of the kernel body leaves behind, as a pure function of what it loaded.

  The body has three cases along the reduction axis k of the grid: the first step (k = 0) clears the accumulator and
  adds the first partial product; a middle step adds one partial product to what the step before left; the last
  step (k = 7) does the same and then writes accumulator + bias into the output block. -/

theorem hz2 : (![0, 0] : Fin 2 → Nat) = fun _ => 0 := funext fun a => by fin_cases a <;> rfl
theorem hz1 : (![0] : Fin 1 → Nat) = fun _ => 0 := funext fun a => by fin_cases a; rfl

/-- First step: the accumulator is cleared (the zero block) and the first partial product is added to it. -/
theorem scratch_A (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x512 .bf16) (x1 : Vec F S2048x512 .bf16) (x2 : Vec F S2048 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz2, View.readCov_unit_zero (S := S1024x2048) _ hz2]
  simp only [View.readAt_eq_ld, harg3.read_unread, harg4.read_unread, harg5.read_unread, harg7.read_unread,
    View.ld_unit_zero (S := S1024x2048) hz2, View.ld_unit_zero (S := S1024x512) hz2, View.ld_unit_zero (S := S2048x512) hz2,
    View.ld_unit_zero (S := S2048) hz1, View.readCov_unit_zero (S := S1024x2048) _ hz2]

/-- Middle step: one partial product is added to what the step before left in the accumulator. -/
theorem scratch_B (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x512 .bf16) (x1 : Vec F S2048x512 .bf16) (x2 : Vec F S2048 .f32) (xs0 : Vec F S1024x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg7.read_unread,
    View.ld_unit_zero (S := S1024x2048) hz2, View.ld_unit_zero (S := S1024x512) hz2, View.ld_unit_zero (S := S2048x512) hz2,
    View.ld_unit_zero (S := S2048) hz1, View.readCov_unit_zero (S := S1024x2048) _ hz2]

/-- Last step, the accumulator: as in a middle step. -/
theorem scratch_C (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S2048 .f32) (xs0 : Vec F S1024x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread,
    View.ld_unit_zero (S := S1024x2048) hz2, View.ld_unit_zero (S := S1024x512) hz2, View.ld_unit_zero (S := S2048x512) hz2,
    View.ld_unit_zero (S := S2048) hz1, View.readCov_unit_zero (S := S1024x2048) _ hz2]

/-- Last step, the output block: the finished accumulator plus the bias row. -/
theorem out_C (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S2048 .f32) (xs0 : Vec F S1024x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread,
    View.ld_unit_zero (S := S1024x2048) hz2, View.ld_unit_zero (S := S1024x512) hz2, View.ld_unit_zero (S := S2048x512) hz2,
    View.ld_unit_zero (S := S2048) hz1, View.readCov_unit_zero (S := S1024x2048) _ hz2]

end Cert.KernelIdeal.Hand

end
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.Payload.lean ====
/-
  The three values the kernel stores, each read at one entry on the extended reals: the zero block, the block
  accumulated with one partial product, and the block with the bias row added.
-/
import proofs.«429844_j46007689674846_3_alg».proof.Proof.Gen.KernelIdeal.Skeleton
import proofs.«429844_j46007689674846_3_alg».proof.Proof.LibDots
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.ValueIdx

/-- The initial block is zero at every entry. -/
theorem pay1_apply (r : Fin 1024) (c : Fin 2048) : k0_pay1 (F := Ideal) (ix2 r c) = 0 := by
  unfold k0_pay1
  show shapeCast S1024x2048 (broadcast S1024x2048 (Scalar.ofBits (F := Ideal) .f32 0x00000000#32)) _ (ix2 r c) = 0
  rw [shapeCast_self]
  exact Ideal.ofBits_zero_f32

/-- One accumulation step: the entry (r, c) of the accumulator grows by the inner product of row r of the block of x
    with row c of the block of W. -/
theorem pay2_apply (acc : Vec Ideal S1024x2048 .f32) (xb : Vec Ideal S1024x512 .bf16) (wb : Vec Ideal S2048x512 .bf16)
    (r : Fin 1024) (c : Fin 2048) :
    k0_pay2 (F := Ideal) acc xb wb (ix2 r c) = acc (ix2 r c) + ∑ q : Fin 512, xb (ix2 r q) * wb (ix2 c q) := by
  unfold k0_pay2
  show shapeCast S1024x2048 (addf (F := Ideal) (φ := .f32) acc (matmul (F := Ideal) (φ₁ := .bf16) (φ₂ := .bf16)
      dot_S1024x512_S2048x512_S1024x2048_1_1_0_0_n_n none
      (shapeCast (α := Ideal .bf16) S1024x512 xb _) (shapeCast (α := Ideal .bf16) S2048x512 wb _)
      (constant S1024x2048 .f32 0x00000000#32))) _ (ix2 r c) = _
  rw [shapeCast_self, shapeCast_self, shapeCast_self]
  show acc (ix2 r c) + matmul (F := Ideal) (φ₁ := .bf16) (φ₂ := .bf16)
      dot_S1024x512_S2048x512_S1024x2048_1_1_0_0_n_n none xb wb
      (constant S1024x2048 .f32 0x00000000#32) (ix2 r c) = _
  exact congrArg (acc (ix2 r c) + ·)
    (Cert.Lib.Dots.matmul_zero_rowsT_apply (φ₁ := .bf16) (φ₂ := .bf16) dot_S1024x512_S2048x512_S1024x2048_1_1_0_0_n_n_wf none xb wb r c)

/-- The last step: the bias entry of column c is added to every row. -/
theorem pay3_apply (acc : Vec Ideal S1024x2048 .f32) (bb : Vec Ideal S2048 .f32) (r : Fin 1024) (c : Fin 2048) :
    k0_pay3 (F := Ideal) acc bb (ix2 r c) = acc (ix2 r c) + bb (ix1 c) := by
  unfold k0_pay3
  show acc (ix2 r c) + broadcastTo S1024x2048 (shapeCast (α := Ideal .f32) S1x2048 bb _) _ (ix2 r c) = _
  rw [broadcastTo_1b_ab_apply, shapeCast_a_1a_apply]

end Cert.KernelIdeal.Hand

end
-- ==== Proof.Blocks.lean ====
import proofs.«429844_j46007689674846_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem
open Idealize.ShloMosaic.ValueIdx
open Idealize.ShloMosaic.Pipeline (Dat)

namespace Cert.KernelIdeal.Hand

open Cert.KernelIdeal Cert.KernelIdeal.Gen

/-! Where each window's block sits in its array.

  The grid is 8 × 2 × 8 and point t has coordinates (i, j, k) = (t / 16, t / 8 % 2, t % 8): i picks a band of 1024
  rows of x, j a band of 2048 output features (rows of the weight matrix, entries of the bias, columns of the
  result), k a band of 512 positions along the contracted axis. -/

variable {F : FTy → Type} [FloatOps F]
variable (m : (ℓ : Loc nD τ sig) → Buf (Elt F) ℓ)

/-- The arrays the three input windows read, as the region finds them, and each window's block at a point. -/
abbrev xarr (c : Dev nD) : Vec F S8192x4096 .bf16 := V m c main_v13
abbrev warr (c : Dev nD) : Vec F S4096x4096 .bf16 := V m c main_v11
abbrev barr (c : Dev nD) : Vec F S4096 .f32 := V m c main_arg3
abbrev xblk (c : Dev nD) (t : Fin cfg0.N) : Vec F S1024x512 .bf16 := iblk m c 0 t
abbrev wblk (c : Dev nD) (t : Fin cfg0.N) : Vec F S2048x512 .bf16 := iblk m c 1 t
abbrev bblk (c : Dev nD) (t : Fin cfg0.N) : Vec F S2048 .f32 := iblk m c 2 t

theorem t_lt (t : Fin cfg0.N) : t.val < 128 := lt_of_lt_of_eq t.isLt (show cfg0.N = 128 from N_0)

/-- Row i·1024 + r of x, output feature j·2048 + c, contracted position k·512 + q, at point t = (i, j, k). -/
def rowOf (t : Fin cfg0.N) (r : Fin 1024) : Fin 8192 :=
  ⟨t.val / 16 * 1024 + r.val, by have := t_lt t; have := r.isLt; omega⟩
def colOf (t : Fin cfg0.N) (c : Fin 2048) : Fin 4096 :=
  ⟨t.val / 8 % 2 * 2048 + c.val, by have := c.isLt; omega⟩
def kOf (t : Fin cfg0.N) (q : Fin 512) : Fin 4096 :=
  ⟨t.val % 8 * 512 + q.val, by have := q.isLt; omega⟩

/-- The printed index maps, in closed form, decided over the 128 grid points. -/
theorem idx_maps : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 1) = t.val / 8 % 2
    ∧ win0_3.index t (0 : Fin 2) = t.val / 16 ∧ win0_3.index t (1 : Fin 2) = t.val / 8 % 2 :=
  (by decide +kernel : ∀ t : Fin grid0.N, _)

/-- The block of x at point (i, j, k): rows i·1024 …, columns k·512 …. -/
theorem xblk_apply (c : Dev nD) (t : Fin cfg0.N) (r : Fin 1024) (q : Fin 512) :
    xblk m c t (ix2 r q) = xarr m c (ix2 (rowOf t r) (kOf t q)) := by
  unfold xblk xarr iblk
  rw [View.read_apply]
  show V m c main_v13 _ = V m c main_v13 _
  congr 1
  funext a
  apply Fin.ext
  match a with
  | ⟨0, _⟩ => show win0_0.index t 0 * 1024 + 1 * r.val = t.val / 16 * 1024 + r.val; rw [(idx_maps t).1]; omega
  | ⟨1, _⟩ => show win0_0.index t 1 * 512 + 1 * q.val = t.val % 8 * 512 + q.val; rw [(idx_maps t).2.1]; omega

/-- The block of the weight matrix at point (i, j, k): rows j·2048 …, columns k·512 …. -/
theorem wblk_apply (c : Dev nD) (t : Fin cfg0.N) (o : Fin 2048) (q : Fin 512) :
    wblk m c t (ix2 o q) = warr m c (ix2 (colOf t o) (kOf t q)) := by
  unfold wblk warr iblk
  rw [View.read_apply]
  show V m c main_v11 _ = V m c main_v11 _
  congr 1
  funext a
  apply Fin.ext
  match a with
  | ⟨0, _⟩ => show win0_1.index t 0 * 2048 + 1 * o.val = t.val / 8 % 2 * 2048 + o.val; rw [(idx_maps t).2.2.1]; omega
  | ⟨1, _⟩ => show win0_1.index t 1 * 512 + 1 * q.val = t.val % 8 * 512 + q.val; rw [(idx_maps t).2.2.2.1]; omega

/-- The block of the bias at point (i, j, k): entries j·2048 …. -/
theorem bblk_apply (c : Dev nD) (t : Fin cfg0.N) (o : Fin 2048) :
    bblk m c t (ix1 o) = barr m c (ix1 (colOf t o)) := by
  unfold bblk barr iblk
  rw [View.read_apply]
  show V m c main_arg3 _ = V m c main_arg3 _
  congr 1
  funext a
  apply Fin.ext
  match a with
  | ⟨0, _⟩ => show win0_2.index t 0 * 2048 + 1 * o.val = t.val / 8 % 2 * 2048 + o.val; rw [(idx_maps t).2.2.2.2.1]; omega

end Cert.KernelIdeal.Hand

end
-- ==== Proof.LibRangeBlocks.lean ====
/-
  A sum over an initial segment of the naturals, taken block by block: the first (k+1)·B terms are the first k·B terms
  plus the B terms of block k. Only commutativity and associativity of addition are used, so the statements hold in
  the extended reals. General facts, about no particular program.
-/
import Mathlib.Algebra.BigOperators.Fin
import Mathlib.Algebra.BigOperators.Intervals

open scoped BigOperators

namespace Cert.Lib.RangeBlocks

/-- The first (k+1)·B terms are the first k·B terms followed by the B terms g (k·B), …, g (k·B + B − 1). -/
theorem sum_range_succ_block {M : Type*} [AddCommMonoid M] (g : ℕ → M) (B k : ℕ) :
    ∑ p ∈ Finset.range ((k + 1) * B), g p
      = (∑ p ∈ Finset.range (k * B), g p) + ∑ q : Fin B, g (k * B + q.val) := by
  rw [Nat.add_one_mul, Finset.sum_range_add]
  exact congrArg _ (Finset.sum_range fun q => g (k * B + q))

/-- A sum over the naturals below n of a function that only looks at the value is the sum over Fin n. -/
theorem sum_range_eq_sum_fin {M : Type*} [AddCommMonoid M] (n : ℕ) (g : ℕ → M) :
    ∑ p ∈ Finset.range n, g p = ∑ p : Fin n, g p.val :=
  Finset.sum_range g

end Cert.Lib.RangeBlocks
-- ==== Proof.Partial.lean ====
/-
  Partial inner products: the first n terms of the inner product of one row of X (8192 × 4096) with one row of
  W (4096 × 4096), over the extended reals. The kernel builds each entry of X · Wᵀ as such a partial sum growing by
  512 terms per step of the reduction axis; after eight steps the partial sum is the whole inner product.
-/
import proofs.«429844_j46007689674846_3_alg».proof.Proof.LibRangeBlocks
import Idealize.ShloMosaic.PureOps.Ideal
import Idealize.ShloMosaic.Lib.ValueIdx

noncomputable section

open scoped BigOperators

namespace Cert.Hand

open Idealize.ShloMosaic Idealize.ShloMosaic.ValueIdx

/-- The column a natural number names, reduced modulo 4096 (below 4096: the number itself). -/
def colIx (p : ℕ) : Fin 4096 := ⟨p % 4096, Nat.mod_lt _ (by decide)⟩

theorem colIx_val (p : Fin 4096) : colIx p.val = p := Fin.ext (Nat.mod_eq_of_lt p.isLt)

theorem colIx_of_lt (p : ℕ) (h : p < 4096) : colIx p = ⟨p, h⟩ := Fin.ext (Nat.mod_eq_of_lt h)

variable (X : (⟨2, ![8192, 4096]⟩ : Shape).Idx → EReal) (W : (⟨2, ![4096, 4096]⟩ : Shape).Idx → EReal)
  (row : Fin 8192) (col : Fin 4096)

/-- The first n terms of ∑ p, X (row, p) · W (col, p). -/
def partialDot (n : ℕ) : EReal :=
  ∑ p ∈ Finset.range n, X (ix2 row (colIx p)) * W (ix2 col (colIx p))

theorem partialDot_zero : partialDot X W row col 0 = 0 := Finset.sum_range_zero _

/-- One more block of 512 terms. -/
theorem partialDot_block (k : ℕ) :
    partialDot X W row col ((k + 1) * 512)
      = partialDot X W row col (k * 512)
        + ∑ q : Fin 512, X (ix2 row (colIx (k * 512 + q.val))) * W (ix2 col (colIx (k * 512 + q.val))) :=
  Cert.Lib.RangeBlocks.sum_range_succ_block _ 512 k

/-- All 4096 terms: the inner product. -/
theorem partialDot_full :
    partialDot X W row col 4096 = ∑ p : Fin 4096, X (ix2 row p) * W (ix2 col p) := by
  unfold partialDot
  rw [Cert.Lib.RangeBlocks.sum_range_eq_sum_fin]
  exact Finset.sum_congr rfl fun p _ => by rw [colIx_val]

end Cert.Hand

end
-- ==== Proof.Accum.lean ====
import proofs.«429844_j46007689674846_3_alg».proof.Proof.Gen.KernelIdeal.Frame
import proofs.«429844_j46007689674846_3_alg».proof.Proof.Pieces
import proofs.«429844_j46007689674846_3_alg».proof.Proof.Payload
import proofs.«429844_j46007689674846_3_alg».proof.Proof.Blocks
import proofs.«429844_j46007689674846_3_alg».proof.Proof.Partial
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.Tactic Idealize.SL.Sem
open Idealize.ShloMosaic.ValueIdx
open Idealize.ShloMosaic.Pipeline (Dat)

namespace Cert.KernelIdeal.Hand

open Cert.KernelIdeal Cert.KernelIdeal.Gen Cert.Hand

/-! The accumulator, point by point, on the extended reals.

  At grid point t = (i, j, k) the accumulator's entry (r, c) holds the first (k + 1) · 512 terms of the inner product
  of row i·1024 + r of x with row j·2048 + c of the weight matrix: the step k = 0 starts from zero, every later step
  adds the next 512 terms to what the step before left (same i and j, k − 1). After k = 7 all 4096 terms are there,
  and the output block is that inner product plus the bias entry j·2048 + c. -/

variable (m : (ℓ : Loc nD τ sig) → Buf (Elt Ideal) ℓ)

/-- x (as a matrix), the weight matrix and the bias as the region finds them, as arrays of extended reals. -/
abbrev Xr (c : Dev nD) : (⟨2, ![8192, 4096]⟩ : Shape).Idx → EReal := xarr m c
abbrev Wr (c : Dev nD) : (⟨2, ![4096, 4096]⟩ : Shape).Idx → EReal := warr m c
abbrev Br (c : Dev nD) : (⟨1, ![4096]⟩ : Shape).Idx → EReal := barr m c

/-- What the accumulator holds after point t. -/
def accAfter (c : Dev nD) (t : Fin cfg0.N) : Vec Ideal S1024x2048 .f32 :=
  fun y => partialDot (Xr m c) (Wr m c) (rowOf t (y 0)) (colOf t (y 1)) ((t.val % 8 + 1) * 512)

theorem accAfter_apply (c : Dev nD) (t : Fin cfg0.N) (r : Fin 1024) (o : Fin 2048) :
    accAfter m c t (ix2 r o) = partialDot (Xr m c) (Wr m c) (rowOf t r) (colOf t o) ((t.val % 8 + 1) * 512) := rfl

/-- One step: if the accumulator held the first k·512 terms, adding the product of the blocks of point t = (i, j, k)
    leaves the first (k+1)·512 terms. -/
theorem grow (c : Dev nD) (t : Fin cfg0.N) (prev : Vec Ideal S1024x2048 .f32)
    (hprev : ∀ (r : Fin 1024) (o : Fin 2048),
      prev (ix2 r o) = partialDot (Xr m c) (Wr m c) (rowOf t r) (colOf t o) (t.val % 8 * 512)) :
    k0_pay2 (F := Ideal) prev (xblk m c t) (wblk m c t) = accAfter m c t := by
  funext y
  obtain ⟨r, o, rfl⟩ : ∃ (r : Fin 1024) (o : Fin 2048), y = ix2 r o := ⟨y 0, y 1, eq_ix2 y⟩
  rw [accAfter_apply, partialDot_block]
  refine (pay2_apply prev (xblk m c t) (wblk m c t) r o).trans ?_
  rw [hprev r o]
  refine congrArg (partialDot (Xr m c) (Wr m c) (rowOf t r) (colOf t o) (t.val % 8 * 512) + ·) ?_
  refine Finset.sum_congr rfl fun q _ => ?_
  have e : colIx (t.val % 8 * 512 + q.val) = kOf t q := by unfold kOf; exact colIx_of_lt _ _
  rw [e, xblk_apply, wblk_apply]

/-- The first step of a run (k = 0) starts from the zero block. -/
theorem first_step (c : Dev nD) (t : Fin cfg0.N) (h0 : t.val % 8 = 0) :
    k0_pay2 (F := Ideal) (k0_pay1 (F := Ideal)) (xblk m c t) (wblk m c t) = accAfter m c t :=
  grow m c t _ fun r o => by rw [pay1_apply, h0, Nat.zero_mul, partialDot_zero]

/-- A later step (k > 0) continues from what the point before, (i, j, k − 1), left. -/
theorem next_step (c : Dev nD) (t : Fin cfg0.N) (h0 : ¬t.val % 8 = 0) (hp : t.val - 1 < cfg0.N) :
    k0_pay2 (F := Ideal) (accAfter m c ⟨t.val - 1, hp⟩) (xblk m c t) (wblk m c t) = accAfter m c t :=
  grow m c t _ fun r o => by
    have ht := t_lt t
    have e1 : rowOf ⟨t.val - 1, hp⟩ r = rowOf t r :=
      Fin.ext (by show (t.val - 1) / 16 * 1024 + r.val = t.val / 16 * 1024 + r.val; omega)
    have e2 : colOf ⟨t.val - 1, hp⟩ o = colOf t o :=
      Fin.ext (by show (t.val - 1) / 8 % 2 * 2048 + o.val = t.val / 8 % 2 * 2048 + o.val; omega)
    have e3 : ((t.val - 1) % 8 + 1) * 512 = t.val % 8 * 512 := by omega
    show partialDot (Xr m c) (Wr m c) (rowOf ⟨t.val - 1, hp⟩ r) (colOf ⟨t.val - 1, hp⟩ o) (((t.val - 1) % 8 + 1) * 512) = _
    rw [e1, e2, e3]

/-- The accumulator after a point with k = 0. -/
theorem scratch_first (c : Dev nD) (t : Fin cfg0.N) (h0 : t.val % 8 = 0) :
    (outsAt0 m c t.val t.isLt).2 = accAfter m c t := by
  have h1 : ¬t.val % 8 = 7 := by omega
  rw [outsAt0_A m c t h0 h1]
  dsimp only
  refine (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)).trans ?_
  exact first_step m c t h0

/-- The accumulator after a point with k > 0, given it for the point before. -/
theorem scratch_next (c : Dev nD) (t : Fin cfg0.N) (h0 : ¬t.val % 8 = 0)
    (ih : (outsAt0 m c (t.val - 1) (Nat.lt_of_le_of_lt (Nat.sub_le _ _) t.isLt)).2
      = accAfter m c ⟨t.val - 1, Nat.lt_of_le_of_lt (Nat.sub_le _ _) t.isLt⟩) :
    (outsAt0 m c t.val t.isLt).2 = accAfter m c t := by
  by_cases h1 : t.val % 8 = 7
  · rw [outsAt0_C m c t h0 h1]
    dsimp only
    refine (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2).trans ?_
    rw [ih]
    exact next_step m c t h0 _
  · rw [outsAt0_B m c t h0 h1]
    dsimp only
    refine (scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2).trans ?_
    rw [ih]
    exact next_step m c t h0 _

/-- The accumulator after every point, by induction along the grid's order. -/
theorem scratch_eq (c : Dev nD) : ∀ (n : ℕ) (h : n < cfg0.N), (outsAt0 m c n h).2 = accAfter m c ⟨n, h⟩ := by
  intro n
  induction n with
  | zero => intro h; exact scratch_first m c ⟨0, h⟩ rfl
  | succ n ih =>
    intro h
    by_cases h0 : (n + 1) % 8 = 0
    · exact scratch_first m c ⟨n + 1, h⟩ h0
    · exact scratch_next m c ⟨n + 1, h⟩ h0 (ih (Nat.lt_of_succ_lt h))

/-- The output block at a point with k = 7: the finished accumulator plus the bias row. -/
theorem outblk_eq (c : Dev nD) (t : Fin cfg0.N) (h0 : ¬t.val % 8 = 0) (h1 : t.val % 8 = 7) :
    (outsAt0 m c t.val t.isLt).1 = k0_pay3 (F := Ideal) (accAfter m c t) (bblk m c t) := by
  rw [outsAt0_C m c t h0 h1]
  dsimp only
  refine (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2).trans ?_
  rw [scratch_eq m c (t.val - 1) _, next_step m c t h0 _]

/-- Entry (r, c) of that block: the whole inner product of row i·1024 + r of x with row j·2048 + c of the weight
    matrix, plus the bias entry j·2048 + c. -/
theorem outblk_apply (c : Dev nD) (t : Fin cfg0.N) (h0 : ¬t.val % 8 = 0) (h1 : t.val % 8 = 7) (r : Fin 1024) (o : Fin 2048) :
    (outsAt0 m c t.val t.isLt).1 (ix2 r o)
      = (∑ p : Fin 4096, Xr m c (ix2 (rowOf t r) p) * Wr m c (ix2 (colOf t o) p)) + Br m c (ix1 (colOf t o)) := by
  rw [outblk_eq m c t h0 h1]
  refine (pay3_apply (accAfter m c t) (bblk m c t) r o).trans ?_
  rw [accAfter_apply, h1, show (7 + 1) * 512 = 4096 from rfl, partialDot_full, bblk_apply]

end Cert.KernelIdeal.Hand

end
-- ==== Proof.Cover.lean ====
/-
  The blocks the output window writes back cover the result matrix. The grid is 8 × 2 × 8 with point
  t = i·16 + j·8 + k; the output's block at t is block (i, j) of 1024 × 2048 entries, written back at the points with
  k = 7. So entry (R, C) lies in the block written back at t = (R / 1024)·16 + (C / 2048)·8 + 7.
-/
import proofs.«429844_j46007689674846_3_alg».proof.Proof.Blocks
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.ValueIdx

/-- Every entry of the 8192 × 4096 result lies in a block that some point of the grid writes back. -/
theorem cover_out (i : S8192x4096.Idx) :
    ∃ t : Fin cfg0.N, (cfg0.win 3).flush t = true ∧ i ∈ ((cfg0.win 3).blk t).view.set := by
  have h0 : (i 0 : Nat) < 8192 := (i 0).isLt
  have h1 : (i 1 : Nat) < 4096 := (i 1).isLt
  -- the point (R / 1024, C / 2048, 7)
  have hN : cfg0.N = 128 := N_0
  have ht : (i 0).val / 1024 * 16 + (i 1).val / 2048 * 8 + 7 < cfg0.N := by rw [hN]; omega
  refine ⟨⟨(i 0).val / 1024 * 16 + (i 1).val / 2048 * 8 + 7, ht⟩, (flush0_3 _).mpr ?_, ?_⟩
  · -- its last coordinate is 7
    show ((i 0).val / 1024 * 16 + (i 1).val / 2048 * 8 + 7) % 8 = 7
    omega
  · -- its block holds rows (R / 1024)·1024 … and columns (C / 2048)·2048 …
    generalize hte : (⟨(i 0).val / 1024 * 16 + (i 1).val / 2048 * 8 + 7, ht⟩ : Fin cfg0.N) = t
    have htv : t.val = (i 0).val / 1024 * 16 + (i 1).val / 2048 * 8 + 7 := by rw [← hte]
    show i ∈ ((View.whole main_v14).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [(idx_maps t).2.2.2.2.2.1, htv]
      omega
    | ⟨1, _⟩ =>
      show win0_3.index t 1 * 2048 ≤ (i 1 : Nat) ∧ (i 1 : Nat) < win0_3.index t 1 * 2048 + 2048
      rw [(idx_maps t).2.2.2.2.2.2, htv]
      omega

end Cert.KernelIdeal.Hand

end
-- ==== Proof.Spec.lean ====
/-
  The specification both programs are compared with: a linear layer over the extended reals.

  For an input x of shape [4, 2048, 4096], a weight matrix w of shape [4096, 4096] (row o holds the weights of output
  feature o) and a bias b of shape [4096], the result at (n, s, o) is

      (∑ p < 4096, x (n, s, p) · w (o, p)) + b (o).

  The weight matrix is kept abstract here: both programs rebuild it from the codebook by one and the same chain of
  layout operations, so only the index vector fed to that chain has to be compared.
-/
import Idealize.ShloMosaic.PureOps.Ideal
import Idealize.ShloMosaic.Lib.ValueIdx

noncomputable section

open scoped BigOperators

namespace Cert.Hand

open Idealize.ShloMosaic Idealize.ShloMosaic.ValueIdx

/-- x · wᵀ + b, entry by entry, over the extended reals. -/
def linearOut (x : FVec Ideal ⟨3, ![4, 2048, 4096]⟩ .f32) (w : FVec Ideal ⟨2, ![4096, 4096]⟩ .f32)
    (b : FVec Ideal ⟨1, ![4096]⟩ .f32) : FVec Ideal ⟨3, ![4, 2048, 4096]⟩ .f32 :=
  fun i => (∑ p : Fin 4096, x (ix3 (i 0) (i 1) p) * w (ix2 (i 2) p)) + b (ix1 (i 2))

theorem linearOut_apply (x : FVec Ideal ⟨3, ![4, 2048, 4096]⟩ .f32) (w : FVec Ideal ⟨2, ![4096, 4096]⟩ .f32)
    (b : FVec Ideal ⟨1, ![4096]⟩ .f32) (n : Fin 4) (s : Fin 2048) (o : Fin 4096) :
    linearOut x w b (ix3 n s o) = (∑ p : Fin 4096, x (ix3 n s p) * w (ix2 o p)) + b (ix1 o) := rfl

end Cert.Hand

end
-- ==== Proof.Tail.lean ====
/-
  The two reshapes around the matrix product. Row n·2048 + s of the 8192 × 4096 matrix is row (n, s) of the
  [4, 2048, 4096] input, and the change of float format is the identity on the extended reals; so a matrix result whose
  entry (r, o) is the inner product of row r of the reshaped input with row o of the weights plus the bias entry o
  is, reshaped back to [4, 2048, 4096], the linear layer of the specification.
-/
import proofs.«429844_j46007689674846_3_alg».proof.Proof.Gen.KernelIdeal
import proofs.«429844_j46007689674846_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Idealize.ShloMosaic Idealize.ShloMosaic.ValueIdx

/-- The reshaped input in the narrower format, read at (n·2048 + s, p), is the input at (n, s, p): both indices have
    the row-major position (n·2048 + s)·4096 + p. -/
theorem xmat_apply (x : FVec Ideal S4x2048x4096 .f32) (h1 : S4x2048x4096.ShapeCasts S8192x4096)
    (hb : FTy.bits .bf16 < FTy.bits .f32) (n : Fin 4) (s : Fin 2048) (p : Fin 4096)
    (hr : n.val * 2048 + s.val < 8192) :
    (truncf .bf16 (shapeCast S8192x4096 x h1) hb : FVec Ideal S8192x4096 .bf16) (ix2 ⟨n.val * 2048 + s.val, hr⟩ p)
      = x (ix3 n s p) := by
  rw [truncf_apply]
  exact shapeCast_apply x h1 (ix2 ⟨n.val * 2048 + s.val, hr⟩ p) (ix3 n s p) (by
    rw [Shape.rowMajor_val_three, Shape.rowMajor_val_two]
    rfl)

/-- A matrix result that is, entry by entry, the inner product of a row of the reshaped input with a row of the
    weights plus the bias, is the specification's linear layer once reshaped back to [4, 2048, 4096]. -/
theorem tail_eq (x : FVec Ideal S4x2048x4096 .f32) (W : FVec Ideal S4096x4096 .bf16) (b : FVec Ideal S4096 .f32)
    (arr : FVec Ideal S8192x4096 .f32) (h1 : S4x2048x4096.ShapeCasts S8192x4096)
    (h2 : S8192x4096.ShapeCasts S4x2048x4096) (hb : FTy.bits .bf16 < FTy.bits .f32)
    (harr : ∀ (r : Fin 8192) (o : Fin 4096), arr (ix2 r o)
      = (∑ p : Fin 4096, (truncf .bf16 (shapeCast S8192x4096 x h1) hb : FVec Ideal S8192x4096 .bf16) (ix2 r p)
          * W (ix2 o p)) + b (ix1 o)) :
    shapeCast S4x2048x4096 arr h2 = Cert.Hand.linearOut x W b := by
  funext i
  obtain ⟨n, s, o, rfl⟩ : ∃ n s o, i = ix3 n s o := ⟨i 0, i 1, i 2, eq_ix3 i⟩
  -- the row of the matrix that holds row (n, s) of the input
  have hr : n.val * 2048 + s.val < 8192 := by have := n.isLt; have := s.isLt; omega
  -- the reshape back reads the matrix at (n·2048 + s, o): the same row-major position
  have e : shapeCast S4x2048x4096 arr h2 (ix3 n s o) = arr (ix2 ⟨n.val * 2048 + s.val, hr⟩ o) :=
    shapeCast_apply arr h2 (ix3 n s o) (ix2 ⟨n.val * 2048 + s.val, hr⟩ o) (by
      rw [Shape.rowMajor_val_three, Shape.rowMajor_val_two]
      rfl)
  rw [e, harr, Cert.Hand.linearOut_apply]
  -- under the sum, the reshaped input at (n·2048 + s, p) is the input at (n, s, p)
  refine congrArg (· + b (ix1 o)) (Finset.sum_congr rfl fun p _ => ?_)
  rw [xmat_apply x h1 hb n s p hr]

end Cert.KernelIdeal.Hand

end
-- ==== Proof.KernelWeights.lean ====
/-
  The weight matrix the kernel's program rebuilds before its matrix product, as a function of the codebook and the
  assignments: clip the assignments to [0, 255], wrap negative ones by 256 (a no-op after the clip), gather one
  codebook row of 8 entries per assignment, and lay the 2097152 × 8 gathered entries out as the 4096 × 4096 matrix
  whose row o, block b holds the gathered row b · 4096 + o.
-/
import proofs.«429844_j46007689674846_3_alg».proof.Proof.Gen.KernelIdeal

noncomputable section

namespace Cert.KernelIdeal.Hand

open Cert.KernelIdeal Cert.KernelIdeal.Facts₀ Idealize.ShloMosaic

variable {F : FTy → Type} [FloatOps F]

/-- min 255 (max 0 a), entry by entry. -/
def clipIdx (a : IVec S2097152 32) : IVec S2097152 32 :=
  minsi (broadcastInDim S2097152 ![] bcast_S_S2097152 (constantI S_ 32 255#32))
    (maxsi (broadcastInDim S2097152 ![] bcast_S_S2097152 (constantI S_ 32 0#32)) a)

/-- A negative entry v is replaced by v + 256. -/
def wrapIdx (v : IVec S2097152 32) : IVec S2097152 32 :=
  select (cmpi .slt v (broadcastInDim S2097152 ![] bcast_S_S2097152 (constantI S_ 32 0#32)))
    (addi v (broadcastInDim S2097152 ![] bcast_S_S2097152 (constantI S_ 32 256#32))) v

/-- The gathered codebook rows laid out as the weight matrix. -/
def weightOf (cent : FVec F S256x8 .f32) (idx : IVec S2097152 32) : FVec F S4096x4096 .f32 :=
  shapeCast S4096x4096
    (transpose S4096x512x8 [1, 0, 2]
      (shapeCast S512x4096x8
        (Host.gather gather_S256x8_S2097152x1_S2097152x8_1_0_n_n_0_1_18 cent
          (broadcastInDim S2097152x1 ![0] bcast_S2097152_S2097152x1_0 idx))
        shapeCasts_S2097152x8_S512x4096x8)
      transposes_S512x4096x8_S4096x512x8_1_0_2)
    shapeCasts_S4096x512x8_S4096x4096

/-- The kernel's weight matrix, in the format its matrix product reads. -/
def kernelW (cent : FVec F S256x8 .f32) (a : IVec S2097152 32) : FVec F S4096x4096 .bf16 :=
  truncf .bf16 (weightOf cent (wrapIdx (clipIdx a))) bitsLt_bf16_f32

end Cert.KernelIdeal.Hand

end
-- ==== Proof.HostReads.lean ====
import proofs.«429844_j46007689674846_3_alg».proof.Proof.Gen.KernelIdeal.Frame
import proofs.«429844_j46007689674846_3_alg».proof.Proof.KernelWeights
import proofs.«429844_j46007689674846_3_alg».proof.Proof.Blocks
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem

namespace Cert.KernelIdeal.Hand

open Cert.KernelIdeal Cert.KernelIdeal.Gen

/-! What the host operations before the matrix product leave in the three arrays the product reads: x reshaped to
    a matrix of 8192 rows (and converted), the weight matrix rebuilt from the codebook, and the bias untouched. -/

variable {F : FTy → Type} [FloatOps F]
variable (m : (ℓ : Loc nD τ sig) → Buf (Elt F) ℓ)

/-- x as a matrix: the reshape [4, 2048, 4096] → [8192, 4096], then the change of float format. -/
theorem xarr_eq (c : Dev nD) :
    xarr m c = truncf .bf16 (shapeCast S8192x4096 (m ((c : Thread nD τ).loc main_arg0)) shapeCasts_S4x2048x4096_S8192x4096)
      bitsLt_bf16_f32 := by
  show (V m c main_v13 : Vec F S8192x4096 .bf16) = _
  dsimp only [V, V0]
  simp only [hostOps0, hostOps0_1, hostOps0_2, List.flatten_cons, List.flatten_nil, List.append_nil, List.cons_append,
    List.nil_append]
  after_results
  rfl

set_option maxHeartbeats 4000000 in
/-- The weight matrix: the chain of KernelWeights.lean applied to the codebook and the assignments. -/
theorem warr_eq (c : Dev nD) :
    warr m c = kernelW (m ((c : Thread nD τ).loc main_arg1)) (m ((c : Thread nD τ).loc main_arg2)) := by
  show (V m c main_v11 : Vec F S4096x4096 .bf16) = _
  dsimp only [V, V0]
  simp only [hostOps0, hostOps0_1, hostOps0_2, List.flatten_cons, List.flatten_nil, List.append_nil, List.cons_append,
    List.nil_append]
  after_results
  rfl

/-- The bias: no host operation writes it. -/
theorem barr_eq (c : Dev nD) : barr m c = m ((c : Thread nD τ).loc main_arg3) := V_main_arg3 m c

end Cert.KernelIdeal.Hand

end
-- ==== Proof.Final.lean ====
import proofs.«429844_j46007689674846_3_alg».proof.Proof.Gen.KernelIdeal.Frame
import proofs.«429844_j46007689674846_3_alg».proof.Proof.Accum
import proofs.«429844_j46007689674846_3_alg».proof.Proof.Blocks
import proofs.«429844_j46007689674846_3_alg».proof.Proof.Partial
import proofs.«429844_j46007689674846_3_alg».proof.Proof.Cover
import proofs.«429844_j46007689674846_3_alg».proof.Proof.Tail
import proofs.«429844_j46007689674846_3_alg».proof.Proof.HostReads
import proofs.«429844_j46007689674846_3_alg».proof.Proof.KernelWeights
import proofs.«429844_j46007689674846_3_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.Tactic Idealize.SL.Sem
open Idealize.ShloMosaic.ValueIdx
open Idealize.ShloMosaic.Pipeline (Dat)

namespace Cert.KernelIdeal.Hand

open Cert.KernelIdeal Cert.KernelIdeal.Gen Cert.Hand

/-! The result matrix after the run, and the result of the whole program.

  Every write-back of the output window happens at a point with k = 7 and writes the block (i, j) of one matrix,
  `outMat`; those blocks tile the [8192, 4096] array, so the array ends holding `outMat`. The program then reshapes it
  to [4, 2048, 4096], which is the linear layer of the specification applied to x, the rebuilt weight matrix and the
  bias. -/

variable (m : (ℓ : Loc nD τ sig) → Buf (Elt Ideal) ℓ)

/-- The matrix the output window's array ends holding: entry (R, C) is the inner product of row R of x (as a matrix)
    with row C of the weight matrix, plus the bias entry C. -/
def outMat (c : Dev nD) : Vec Ideal S8192x4096 .f32 :=
  fun i => (∑ p : Fin 4096, Xr m c (ix2 (i 0) p) * Wr m c (ix2 (i 1) p)) + Br m c (ix1 (i 1))

/-- What a write-back writes is its block of `outMat`. -/
theorem flushed_eq (c : Dev nD) (t : Fin cfg0.N) (hf : (cfg0.win 3).flush t = true) :
    (dats m 0 c).flushed 3 t = ((cfg0.win 3).blk t).view.read (Elt Ideal) (outMat m c) := by
  have h1 : t.val % 8 = 7 := (flush0_3 t).mp hf
  have h0 : ¬t.val % 8 = 0 := by omega
  show (cfg0.win 3).cut (grid0.coords t) ((dats m 0 c).after 3 t) = _
  rw [after0_3]
  funext y
  rw [View.read_apply]
  obtain ⟨r, o, hy⟩ : ∃ (r : Fin 1024) (o : Fin 2048),
      ((cfg0.win 3).xinj (grid0.coords t) y : S1024x2048.Idx) = ix2 r o := ⟨_, _, eq_ix2 _⟩
  have hr : (y 0).val = r.val := congrArg (fun z : S1024x2048.Idx => (z 0).val) hy
  have ho : (y 1).val = o.val := congrArg (fun z : S1024x2048.Idx => (z 1).val) hy
  have e : (((cfg0.win 3).blk t).view.emb y : S8192x4096.Idx) = ix2 (rowOf t r) (colOf t o) :=
    funext fun a => Fin.ext (by
      match a with
      | ⟨0, _⟩ =>
        show win0_3.index t 0 * 1024 + 1 * (y 0).val = t.val / 16 * 1024 + r.val
        rw [(idx_maps t).2.2.2.2.2.1, hr]; omega
      | ⟨1, _⟩ =>
        show win0_3.index t 1 * 2048 + 1 * (y 1).val = t.val / 8 % 2 * 2048 + o.val
        rw [(idx_maps t).2.2.2.2.2.2, ho]; omega)
  show (outsAt0 m c t.val t.isLt).1 ((cfg0.win 3).xinj (grid0.coords t) y) = _
  rw [hy, outblk_apply m c t h0 h1, cast_eq, e]
  rfl

/-- The write-backs cover the array, so it ends holding `outMat`. -/
theorem final_out (c : Dev nD) : (dats m 0 c).arrAt 3 cfg0.N = outMat m c :=
  (dats m 0 c).arrAt_eq_of_cover 3 (outMat m c) (flushed_eq m c) cover_out

/-- `outMat` in terms of the program's arguments. -/
theorem outMat_apply (c : Dev nD) (r : Fin 8192) (o : Fin 4096) :
    outMat m c (ix2 r o)
      = (∑ p : Fin 4096, (truncf .bf16 (shapeCast S8192x4096 (m ((c : Thread nD τ).loc main_arg0)) shapeCasts_S4x2048x4096_S8192x4096)
            bitsLt_bf16_f32 : FVec Ideal S8192x4096 .bf16) (ix2 r p)
          * kernelW (F := Ideal) (m ((c : Thread nD τ).loc main_arg1)) (m ((c : Thread nD τ).loc main_arg2)) (ix2 o p))
        + m ((c : Thread nD τ).loc main_arg3) (ix1 o) := by
  show (∑ p : Fin 4096, xarr m c (ix2 r p) * warr m c (ix2 o p)) + barr m c (ix1 o) = _
  rw [xarr_eq, warr_eq, barr_eq]

/-- The program's result: the reshape of the result matrix, which is the specification's linear layer. -/
theorem result_eq (c : Dev nD) :
    Pipeline.afterTail₀ cfgs (dats m) 0 (V0 m) [hostOps1] c main_v15
      = Cert.Hand.linearOut (m ((c : Thread nD τ).loc main_arg0))
          (kernelW (F := Ideal) (m ((c : Thread nD τ).loc main_arg1)) (m ((c : Thread nD τ).loc main_arg2)))
          (m ((c : Thread nD τ).loc main_arg3)) := by
  unfold Pipeline.afterTail₀
  show StableHlo.after hostOps1 _ (Proc.devRef .tc main_v15) = _
  after_results
  have hw : Pipeline.withArrays (cfgs 0).spec c (V0 m c) (fun w => (dats m 0 c).arrAt w (cfgs 0).N)
      (Proc.devRef .tc main_v14) = outMat m c :=
    (Pipeline.withArrays_arr spec0 launch0.win.arr_inj c _ _ 3).trans (final_out m c)
  show shapeCast S4x2048x4096 (Pipeline.withArrays (cfgs 0).spec c (V0 m c) (fun w => (dats m 0 c).arrAt w (cfgs 0).N)
      (Proc.devRef .tc main_v14)) shapeCasts_S8192x4096_S4x2048x4096 = _
  rw [hw]
  exact tail_eq _ _ _ (outMat m c) shapeCasts_S4x2048x4096_S8192x4096 shapeCasts_S8192x4096_S4x2048x4096 bitsLt_bf16_f32
    (outMat_apply m c)

/-- The kernel's program, run: it terminates, its result is the specification's linear layer of its arguments (with
    the weight matrix it rebuilds), and its arguments end unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v15)
        = Cert.Hand.linearOut (m ((c.tc : Thread nD τ).loc main_arg0))
            (kernelW (F := Ideal) (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.Hand

end
-- ==== Proof.RefValue.lean ====
/-
  The reference program's result is the linear layer of the specification: at (n, s, o) it is the inner product of
  row (n, s) of the input with row o of the weight matrix, plus the bias entry o.
-/
import proofs.«429844_j46007689674846_3_alg».proof.Proof.Gen.ReferenceIdeal.Read
import proofs.«429844_j46007689674846_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The product's first operand is read at (n, s, k): the output's two leading coordinates and the contracted one. -/
theorem lidx_eq (n : Fin 4) (s : Fin 2048) (o k : Fin 4096) : lidx_main_v10 (ix3 n s o) k = ix3 n s k :=
  funext fun a => Fin.ext (by match a with | ⟨0, _⟩ => rfl | ⟨1, _⟩ => rfl | ⟨2, _⟩ => rfl)

/-- The product's second operand is read at (o, k): the output's last coordinate and the contracted one. -/
theorem ridx_eq (n : Fin 4) (s : Fin 2048) (o k : Fin 4096) : ridx_main_v10 (ix3 n s o) k = ix2 o k :=
  funext fun a => Fin.ext (by match a with | ⟨0, _⟩ => rfl | ⟨1, _⟩ => rfl)

/-- The two broadcasts of the bias read it at the output's last coordinate. -/
theorem bidx_eq (n : Fin 4) (s : Fin 2048) (o : Fin 4096) : idx_main_v11 (idx_main_v12 (ix3 n s o)) = ix1 o :=
  funext fun a => Fin.ext (by match a with | ⟨0, _⟩ => rfl)

/-- The reference's result, entry by entry, is x · wᵀ + b for the weight matrix w the reference builds. -/
theorem result_eq (x : FVec Ideal S4x2048x4096 .f32) (cent : FVec Ideal S256x8 .f32) (a : IVec S2097152 32)
    (bias : FVec Ideal S4096 .f32) :
    val_main_v13 (F := Ideal) x cent a bias = Cert.Hand.linearOut x (val_main_v9 (F := Ideal) cent a) bias := by
  funext i
  obtain ⟨n, s, o, rfl⟩ : ∃ n s o, i = ix3 n s o := ⟨i 0, i 1, i 2, eq_ix3 i⟩
  rw [val_main_v13_apply, val_main_v10_apply, val_main_v12_apply, val_main_v11_apply, Cert.Hand.linearOut_apply]
  simp only [lidx_eq, ridx_eq, bidx_eq, Ideal.addf_def]

end Cert.ReferenceIdeal.RefValue

end
-- ==== Proof.IndexVec.lean ====
/-
  The index vector of a 256-row codebook, over 32-bit signed words.

  A vector `a` of 2097152 words is IN RANGE when 0 ≤ a i < 256 (signed) at every position.  Two facts about
  such a vector, each read one position at a time:

  * the wrap of negative indices, `select (a <ₛ 0) (a + 256) a`, leaves it unchanged: no entry is negative,
    so the selector is 0 everywhere and the second branch is taken;
  * the clip to [0, 255], `min 255 (max 0 a)`, leaves it unchanged: `max 0 (a i)` is `a i` because
    0 ≤ a i, and `min 255 (a i)` is `a i` because a i ≤ 255.

  And the range itself is what the last conjunct of the precondition states: the precondition is an `and` of four
  one-bit scalars, the last of them the `and`-reduction over all positions of
  `(a ≥ₛ broadcast 0) ∧ (a <ₛ broadcast 256)`; a reduction by `and` from 1 that comes out 1 met a 1 at every
  position, and a broadcast scalar constant reads that constant at every position.
-/
import proofs.«429844_j46007689674846_3_alg».proof.Pre_finite_inputs
import Idealize.ShloMosaic.PureOps
import Idealize.ShloMosaic.PureOps.Ideal
import Idealize.ShloMosaic.Lib.ReduceAll
import Idealize.ShloMosaic.Lib.StableHlo.Predicate
import Idealize.ShloMosaic.Lib.ValueIdx

noncomputable section

namespace Cert.Hand.IndexVec

open Idealize.ShloMosaic
open Idealize.ShloMosaic.ValueIdx

/-- The shape of the index vector: one axis of 2097152 positions. -/
abbrev S1 : Shape := ⟨1, ![2097152]⟩

/-- Every entry is a signed word in [0, 256), stated with the two word comparisons the precondition makes. -/
def InRange (a : IVec S1 32) : Prop :=
  ∀ i, IntOp.cmpi .sge (a i) 0#32 = 1#1 ∧ IntOp.cmpi .slt (a i) 256#32 = 1#1

/-- The same range as a statement about the signed value of each entry. -/
theorem InRange.toInt {a : IVec S1 32} (h : InRange a) (i : S1.Idx) : 0 ≤ (a i).toInt ∧ (a i).toInt < 256 := by
  obtain ⟨h0, h1⟩ := h i
  rw [IntOp.cmpi_sge] at h0
  rw [IntOp.cmpi_slt] at h1
  have e0 : (0#32 : BitVec 32).toInt = 0 := by decide
  have e1 : (256#32 : BitVec 32).toInt = 256 := by decide
  omega

/-- A rank-0 shape has one index. -/
instance : Subsingleton Cert.Pre_finite_inputs.S_.Idx := ⟨fun _ _ => funext fun d => d.elim0⟩

/-- The precondition's last conjunct, read back: every entry of the index vector is in [0, 256). -/
theorem inRange_of_pre [Cert.Pre_finite_inputs.Facts]
    (x : FVec Ideal Cert.Pre_finite_inputs.S4x2048x4096 .f32) (cent : FVec Ideal Cert.Pre_finite_inputs.S256x8 .f32)
    (a : IVec Cert.Pre_finite_inputs.S2097152 32) (bias : FVec Ideal Cert.Pre_finite_inputs.S4096 .f32)
    (h : Cert.Pre_finite_inputs.fn (F := Ideal) x cent a bias = fun _ => 1#1) : InRange a := by
  have h0 := congrFun h ix0
  unfold Cert.Pre_finite_inputs.fn Cert.Pre_finite_inputs.fn_part1 at h0
  dsimp only at h0
  -- the outermost `and` of two scalars: its second operand is the reduction over the index vector
  have hred := (IntOp.andi_eq_one.1 h0).2
  intro i
  -- a reduction by `and` into the one scalar that is 1 met a 1 at position i
  have hi := Host.reduce_andi_all _ _ _ _ ix0 hred i
  -- at position i the operand is the `and` of the two comparisons, each against a broadcast constant
  exact IntOp.andi_eq_one.1 hi

/-- The wrap of negative indices does nothing to a vector with no negative entry. -/
theorem wrap_eq (a z c256 : IVec S1 32) (h : InRange a) (hz : ∀ i, z i = 0#32) (h256 : ∀ i, c256 i = 256#32) :
    select (cmpi .slt a z) (addi a c256) a = a := by
  funext i
  obtain ⟨h0, _⟩ := h.toInt i
  show Scalar.select (IntOp.cmpi .slt (a i) (z i)) (IntOp.addi (a i) (c256 i)) (a i) = a i
  rw [hz i]
  unfold Scalar.select
  rw [if_neg]
  intro hc
  -- the selector would say a i < 0
  have hlt := IntOp.cmpi_slt.1 hc
  have e0 : (0#32 : BitVec 32).toInt = 0 := by decide
  omega

/-- The clip to [0, 255] does nothing to a vector whose entries are already there. -/
theorem clip_eq (a z c255 : IVec S1 32) (h : InRange a) (hz : ∀ i, z i = 0#32) (h255 : ∀ i, c255 i = 255#32) :
    minsi c255 (maxsi z a) = a := by
  funext i
  obtain ⟨h0, h1⟩ := h.toInt i
  show IntOp.minsi (c255 i) (IntOp.maxsi (z i) (a i)) = a i
  rw [hz i, h255 i]
  have e0 : (0#32 : BitVec 32).toInt = 0 := by decide
  have e255 : (255#32 : BitVec 32).toInt = 255 := by decide
  -- max 0 (a i) = a i: the test `a i <ₛ 0` fails
  have hmax : IntOp.maxsi 0#32 (a i) = a i := by
    unfold IntOp.maxsi
    rw [if_neg]
    rw [BitVec.slt_iff_toInt_lt]
    omega
  rw [hmax]
  -- min 255 (a i) = a i: the test `255 <ₛ a i` fails
  unfold IntOp.minsi
  rw [if_neg]
  rw [BitVec.slt_iff_toInt_lt]
  omega

end Cert.Hand.IndexVec

end
-- ==== Proof.WeightsAgree.lean ====
/-
  The two programs rebuild the same 4096 × 4096 weight matrix.

  Each program turns the codebook (256 rows of 8 entries) into the weight matrix by one chain of layout operations
  applied to an index vector v of 2097152 words: gather codebook row v p for every position p, view the
  2097152 × 8 gathered entries as 512 × 4096 × 8, exchange the first two axes, and view the result as 4096 × 4096.
  The chain is a function of v alone, so two index vectors that are equal give equal matrices.

  The reference applies the chain to the assignments with negative entries wrapped by 256; the kernel's program
  applies it to the assignments first clipped to [0, 255] and then wrapped.  When every assignment is already in
  [0, 256) neither the clip nor the wrap changes an entry, so both index vectors are the assignments themselves.
  The kernel's program finally changes the float format of the matrix, which over the extended reals is the identity.
-/
import proofs.«429844_j46007689674846_3_alg».proof.Proof.KernelWeights
import proofs.«429844_j46007689674846_3_alg».proof.Proof.Gen.ReferenceIdeal.Read
import proofs.«429844_j46007689674846_3_alg».proof.Proof.IndexVec
import Idealize.ShloMosaic.Lib.ValueIdx
import Idealize.ShloMosaic.PureOps.Ideal

noncomputable section

namespace Cert.Hand.WeightsAgree

open Idealize.ShloMosaic
open Cert.Hand.IndexVec

/-- The kernel's index vector: clipping and then wrapping in-range assignments returns them unchanged.
    The two comparands and the addend are broadcasts of scalar constants, which read the constant at every position. -/
theorem kernel_idx_eq (a : IVec Cert.KernelIdeal.S2097152 32) (h : InRange a) :
    Cert.KernelIdeal.Hand.wrapIdx (Cert.KernelIdeal.Hand.clipIdx a) = a := by
  have hc : Cert.KernelIdeal.Hand.clipIdx a = a := by
    unfold Cert.KernelIdeal.Hand.clipIdx
    exact clip_eq a _ _ h (fun _ => rfl) (fun _ => rfl)
  rw [hc]
  unfold Cert.KernelIdeal.Hand.wrapIdx
  exact wrap_eq a _ _ h (fun _ => rfl) (fun _ => rfl)

/-- The reference's index vector: wrapping in-range assignments returns them unchanged. -/
theorem reference_idx_eq (a : IVec Cert.ReferenceIdeal.S2097152 32) (h : InRange a) :
    Cert.ReferenceIdeal.Read.val_main_v4 (F := Ideal) a = a := by
  unfold Cert.ReferenceIdeal.Read.val_main_v4 Cert.ReferenceIdeal.Read.val_main_v1 Cert.ReferenceIdeal.Read.val_main_v3
  exact wrap_eq a _ _ h (fun _ => rfl) (fun _ => rfl)

/-- With in-range assignments the kernel's weight matrix is the reference's. -/
theorem weight_agree (cent : FVec Ideal Cert.KernelIdeal.S256x8 .f32) (a : IVec Cert.KernelIdeal.S2097152 32)
    (h : Cert.Hand.IndexVec.InRange a) :
    (Cert.KernelIdeal.Hand.kernelW (F := Ideal) cent a : Cert.KernelIdeal.S4096x4096.Idx → EReal)
      = Cert.ReferenceIdeal.Read.val_main_v9 (F := Ideal) cent a := by
  -- both index vectors are the assignments
  unfold Cert.KernelIdeal.Hand.kernelW
  rw [kernel_idx_eq a h]
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5
  rw [reference_idx_eq a h]
  -- what is left is the same chain on both sides: the change of float format is the identity, the two gather
  -- descriptions have the same fields, and the side conditions of the layout operations are propositions
  rfl

end Cert.Hand.WeightsAgree

end
-- ==== Proof.lean ====
/-
  A product-quantised linear layer: a tiled matrix product with a rebuilt weight matrix against x · wᵀ + b.

  Both programs take x [4, 2048, 4096], a codebook of 256 rows of 8 entries, 2097152 assignments (one codebook row
  for each of the 512 × 4096 blocks of 8 weights) and a bias [4096]. Both rebuild the 4096 × 4096 weight matrix w by
  gathering one codebook row per assignment and laying the rows out by one and the same chain of reshapes and a
  transpose. They differ in the index vector they gather with: the reference wraps negative assignments by 256, the
  kernel's program first clips the assignments to [0, 255]. The precondition says every assignment is in [0, 256), and
  then both index vectors are the assignments themselves, so the two weight matrices are equal.

  The reference then computes, for every (n, s, o), the inner product over all 4096 positions of row (n, s) of x with
  row o of w, plus b o. The kernel's program views x as a matrix of 8192 rows, and on a grid of 8 × 2 × 8 points
  (i, j, k) adds, for k = 0 … 7, the product of the 1024 × 512 block (i, k) of x with the transpose of the
  2048 × 512 block (j, k) of w into a 1024 × 2048 accumulator that starts at zero; at k = 7 it writes accumulator + bias
  into block (i, j) of the result, which is finally reshaped to [4, 2048, 4096]. On the extended reals a change of
  float format is the identity and addition is commutative and associative, so the eight partial sums of 512 terms
  add up to the reference's one sum of 4096 terms: the two results are equal entry by entry. No finiteness of the
  inputs is used.

  The three frame claims are the generated frames (the reference's is its generated run with the result dropped);
  the idealisation rewrote nothing, so `preserves` is trivial.
-/
import proofs.«429844_j46007689674846_3_alg».proof.Defs
import proofs.«429844_j46007689674846_3_alg».proof.Proof.Gen.Kernel
import proofs.«429844_j46007689674846_3_alg».proof.Proof.Gen.Kernel.Skeleton
import proofs.«429844_j46007689674846_3_alg».proof.Proof.Gen.Kernel.Launch
import proofs.«429844_j46007689674846_3_alg».proof.Proof.Gen.Kernel.Points
import proofs.«429844_j46007689674846_3_alg».proof.Proof.Gen.Kernel.Frame
import proofs.«429844_j46007689674846_3_alg».proof.Proof.Gen.KernelIdeal
import proofs.«429844_j46007689674846_3_alg».proof.Proof.Gen.KernelIdeal.Skeleton
import proofs.«429844_j46007689674846_3_alg».proof.Proof.Gen.KernelIdeal.Launch
import proofs.«429844_j46007689674846_3_alg».proof.Proof.Gen.KernelIdeal.Points
import proofs.«429844_j46007689674846_3_alg».proof.Proof.Gen.KernelIdeal.Frame
import proofs.«429844_j46007689674846_3_alg».proof.Proof.Gen.ReferenceIdeal
import proofs.«429844_j46007689674846_3_alg».proof.Proof.Gen.Pre_finite_inputs
import proofs.«429844_j46007689674846_3_alg».proof.Proof.Gen.ReferenceIdeal.Run
import proofs.«429844_j46007689674846_3_alg».proof.Proof.Gen.ReferenceIdeal.Read
import proofs.«429844_j46007689674846_3_alg».proof.Proof.Final
import proofs.«429844_j46007689674846_3_alg».proof.Proof.RefValue
import proofs.«429844_j46007689674846_3_alg».proof.Proof.IndexVec
import proofs.«429844_j46007689674846_3_alg».proof.Proof.WeightsAgree
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- So does the reference: its run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both results are the linear layer of the specification applied to x, a weight matrix and the bias; the two
    weight matrices are equal because every assignment is in [0, 256). -/
theorem algebraic : Cert.algebraic_KernelIdeal_ReferenceIdeal := by
  intro m ρ m' ρ' hpre hagree
  refine ⟨fun c => Cert.Hand.linearOut
      (m ((c.tc : Thread Cert.KernelIdeal.nD Cert.KernelIdeal.τ).loc Cert.KernelIdeal.main_arg0))
      (Cert.KernelIdeal.Hand.kernelW (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq (F := Ideal) _ _ _ _).trans ?_
  rw [Cert.ReferenceIdeal.RefValue.result_eq, (hagree c).1, (hagree c).2.1, (hagree c).2.2.1, (hagree c).2.2.2]
  have hin := Cert.Hand.IndexVec.inRange_of_pre _ _ _ _ (hpre c)
  rw [← Cert.Hand.WeightsAgree.weight_agree _ _ hin]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
